-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x256 .f32) (main_arg5 : FVec F S128 .f32) (main_arg6 : FVec F S128x256 .f32) (main_arg7 : FVec F S128 .f32) (main_v13 : IVec S_ 1) (main_v16 : IVec S100000x128 1) : IVec S_ 1 :=
  let main_c_5 : IVec S_ 1 := constantI S_ 1 1#1
  let main_v17 : IVec S_ 1 := (fun x v => Host.reduce IntOp.andi x v reducesTo_S100000x128_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S100000x128 .f32) (main_arg2 : FVec F S100000x128 .f32) (main_arg3 : FVec F S100000x128 .f32) (main_arg4 : FVec F S128x256 .f32) (main_arg5 : FVec F S128 .f32) (main_arg6 : FVec F S128x256 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S100000x128 .f32 := Host.absf main_arg3
  let main_cst_4 : FVec F S_ .f32 := constant S_ .f32 0x7F800000#32
  let main_v15 : FVec F S100000x128 .f32 := broadcastInDim S100000x128 ![] bcast_S_S100000x128 main_cst_4
  let main_v16 : IVec S100000x128 1 := cmpf .olt main_v14 main_v15
  fn_part1 (F := F) main_arg4 main_arg5 main_arg6 main_arg7 main_v13 main_v16
-- ==== Kernel.lean ====
abbrev S100000x128 : Shape := ⟨2, ![100000, 128]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S5000x128 : Shape := ⟨2, ![5000, 128]⟩

abbrev nBuf : Space → Nat
  | .hbm => 24
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S100000x128, .f32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128x128, .bf16⟩
  | .hbm, ⟨11, _⟩ => ⟨S128x128, .f32⟩
  | .hbm, ⟨12, _⟩ => ⟨S128x128, .f32⟩
  | .hbm, ⟨13, _⟩ => ⟨S128x128, .bf16⟩
  | .hbm, ⟨14, _⟩ => ⟨S128x128, .f32⟩
  | .hbm, ⟨15, _⟩ => ⟨S128x128, .f32⟩
  | .hbm, ⟨16, _⟩ => ⟨S128x128, .bf16⟩
  | .hbm, ⟨17, _⟩ => ⟨S128x128, .f32⟩
  | .hbm, ⟨18, _⟩ => ⟨S128x128, .f32⟩
  | .hbm, ⟨19, _⟩ => ⟨S128x128, .bf16⟩
  | .hbm, ⟨20, _⟩ => ⟨S1x128, .f32⟩
  | .hbm, ⟨21, _⟩ => ⟨S1x128, .f32⟩
  | .hbm, ⟨22, _⟩ => ⟨S100000x128, .f32⟩
  | .hbm, ⟨23, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .bf16⟩
  | .local _ .vmem, ⟨9, _⟩ => ⟨S128x128, .bf16⟩
  | .local _ .vmem, ⟨10, _⟩ => ⟨S1x128, .f32⟩
  | .local _ .vmem, ⟨11, _⟩ => ⟨S128x128, .bf16⟩
  | .local _ .vmem, ⟨12, _⟩ => ⟨S128x128, .bf16⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_v0_0 : Ref sig .tc := ⟨.hbm, 22, rfl⟩
abbrev main_v0_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S128x256_S128x128_0_0 : S128x256.Slices ![0, 0] S128x128
  transposes_S128x128_S128x128_1_0 : S128x128.Transposes [1, 0] S128x128
  bitsLt_bf16_f32 : FTy.bits .bf16 < FTy.bits .f32
  slices_S128x256_S128x128_0_128 : S128x256.Slices ![0, 128] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S100000x128.size a
  hwx0_10 : ∀ i : grid0.Coords, EltTy.bits .f32 = 32 ∨ (Rect.block (s := S100000x128) S5000x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S100000x128.size a
  hwx0_11 : ∀ i : grid0.Coords, EltTy.bits .f32 = 32 ∨ (Rect.block (s := S100000x128) S5000x128.size (cc0_transform_11 i) (hinb0_11 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v8) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v11) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v13) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0_0) S5000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_1) S5000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x256 : Shape := ⟨2, ![128, 256]⟩
abbrev S128 : Shape := ⟨1, ![128]⟩
abbrev S100000x256 : Shape := ⟨2, ![100000, 256]⟩
abbrev S256x128 : Shape := ⟨2, ![256, 128]⟩
abbrev S1x128 : Shape := ⟨2, ![1, 128]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S100000x128, .f32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S100000x256, .f32⟩
  | .hbm, ⟨9, _⟩ => ⟨S256x128, .f32⟩
  | .hbm, ⟨10, _⟩ => ⟨S100000x128, .f32⟩
  | .hbm, ⟨11, _⟩ => ⟨S1x128, .f32⟩
  | .hbm, ⟨12, _⟩ => ⟨S100000x128, .f32⟩
  | .hbm, ⟨13, _⟩ => ⟨S100000x128, .f32⟩
  | .hbm, ⟨14, _⟩ => ⟨S100000x128, .f32⟩
  | .hbm, ⟨15, _⟩ => ⟨S100000x128, .f32⟩
  | .hbm, ⟨16, _⟩ => ⟨S_, .f32⟩
  | .hbm, ⟨17, _⟩ => ⟨S100000x128, .f32⟩
  | .hbm, ⟨18, _⟩ => ⟨S100000x128, .f32⟩
  | .hbm, ⟨19, _⟩ => ⟨S_, .f32⟩
  | .hbm, ⟨20, _⟩ => ⟨S100000x128, .f32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S100000x256, .f32⟩
  | .hbm, ⟨29, _⟩ => ⟨S256x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  concatenates_S100000x128_S100000x128_S100000x256_d1 : Shape.Concatenates [S100000x128, S100000x128] S100000x256 1
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  dot_S100000x256_S256x128_S100000x128_1_0_0_1_n_n_wf : DotDims.WF S100000x256 S256x128 S100000x128 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.Spec.lean ====
import Idealize.ShloMosaic.PureOps.Ideal
import Idealize.ShloMosaic.Lib.ValueIdx
import Idealize.ShloMosaic.Lib.IdealHost

/-!
  The gated feature select, as one function of its arrays, on the extended reals.

  For a row r and a column c the logit is
      z(r, c) = sum_{k < 128} h0(r, k) * W(c, k) + sum_{k < 128} h1(r, k) * W(c, 128 + k) + b(c),
  the gate is g = logistic z, and the selected feature is h1 + g * (h0 - h1).
  The logistic takes every extended real to a real number in [0, 1] (0 at -inf, 1 at +inf), so where h0 and h1
  are real the convex form g * h0 + (1 - g) * h1 is the same number: the two differ by distributing a real
  factor over a real difference.  A sum over 256 columns splits into the sum over the first 128 and the sum over the
  last 128, which needs only that addition is commutative and associative.
-/

open scoped BigOperators

noncomputable section

namespace Cert.GatedSelect

open Idealize.ShloMosaic Idealize.ShloMosaic.ValueIdx

/-- The feature arrays: 100000 rows of 128 features. -/
abbrev Feat : Shape := ⟨2, ![100000, 128]⟩
/-- The gate's weight: 128 outputs by 256 = 128 + 128 inputs. -/
abbrev Wgt : Shape := ⟨2, ![128, 256]⟩
/-- The gate's bias. -/
abbrev Bia : Shape := ⟨1, ![128]⟩

/-- Column k of the weight's first half. -/
abbrev lo (k : Fin 128) : Fin 256 := ⟨k.val, by omega⟩
/-- Column k of the weight's second half. -/
abbrev hi (k : Fin 128) : Fin 256 := ⟨128 + k.val, by omega⟩

/-- The gate's logit at row r, column c. -/
def logit (h0 h1 : Feat.Idx → EReal) (W : Wgt.Idx → EReal) (b : Bia.Idx → EReal) (r : Fin 100000) (c : Fin 128) : EReal :=
  (∑ k : Fin 128, h0 (ix2 r k) * W (ix2 c (lo k))) + (∑ k : Fin 128, h1 (ix2 r k) * W (ix2 c (hi k))) + b (ix1 c)

/-- The selected feature: h1 + g * (h0 - h1) with g the logistic of the logit. -/
def gated (h0 h1 : Feat.Idx → EReal) (W : Wgt.Idx → EReal) (b : Bia.Idx → EReal) : Feat.Idx → EReal :=
  fun i => h1 i + Ideal.logistic (logit h0 h1 W b (i 0) (i 1)) * (h0 i - h1 i)

/-- The logistic of any extended real is a real number. -/
theorem logistic_real (z : EReal) : ∃ g : ℝ, Ideal.logistic z = (g : EReal) := by
  induction z using EReal.rec with
  | bot => exact ⟨0, by rw [Ideal.logistic_bot]; rfl⟩
  | coe r => exact ⟨_, Ideal.logistic_coe r⟩
  | top => exact ⟨1, by rw [Ideal.logistic_top]; rfl⟩

/-- On real numbers the convex form of the blend is the incremental form. -/
theorem blend_real (g a0 a1 : ℝ) :
    (g : EReal) * (a0 : EReal) + ((1 : EReal) - (g : EReal)) * (a1 : EReal)
      = (a1 : EReal) + (g : EReal) * ((a0 : EReal) - (a1 : EReal)) := by
  have h : g * a0 + (1 - g) * a1 = a1 + g * (a0 - a1) := by ring
  have h' := congrArg (fun x : ℝ => (x : EReal)) h
  simp only [EReal.coe_add, EReal.coe_mul, EReal.coe_sub, EReal.coe_one] at h'
  exact h'

/-- The blend at a gate that is the logistic of anything, where both features are real. -/
theorem blend (z a0 a1 : EReal) (h0 : ∃ x : ℝ, a0 = (x : EReal)) (h1 : ∃ x : ℝ, a1 = (x : EReal)) :
    Ideal.logistic z * a0 + ((1 : EReal) - Ideal.logistic z) * a1 = a1 + Ideal.logistic z * (a0 - a1) := by
  obtain ⟨g, hg⟩ := logistic_real z
  obtain ⟨x0, rfl⟩ := h0
  obtain ⟨x1, rfl⟩ := h1
  rw [hg]
  exact blend_real g x0 x1

/-- A sum over 256 columns is the sum over the first 128 plus the sum over the last 128. -/
theorem sum_halves {M : Type*} [AddCommMonoid M] (f : Fin 256 → M) :
    (∑ k : Fin 256, f k) = (∑ k : Fin 128, f (lo k)) + (∑ k : Fin 128, f (hi k)) := by
  have h := Fin.sum_univ_add (a := 128) (b := 128) (f : Fin (128 + 128) → M)
  refine h.trans ?_
  congr 1

end Cert.GatedSelect

end
-- ==== Proof.Payload.lean ====
import proofs.«157193_g42941083026054_cont_8to1_b_680_16_alg».proof.Proof.Gen.KernelIdeal.Skeleton
import proofs.«157193_g42941083026054_cont_8to1_b_680_16_alg».proof.Proof.LibPlainDot
import proofs.«157193_g42941083026054_cont_8to1_b_680_16_alg».proof.Proof.Spec
import Idealize.ShloMosaic.Lib.ValueLayout
import Idealize.ShloMosaic.Lib.Pipeline.Value

/-!
  What the kernel's body stores, read at one entry of a block.

  A block holds 5000 rows. At row p and column q both stores hold
      x1(p, q) + logistic( sum_k x0(p, k) * wa(k, q) + sum_k x1(p, k) * wb(k, q) + bias(0, q) ) * (x0(p, q) - x1(p, q)),
  where wa and wb are the two 128 x 128 weight operands and bias is the 1 x 128 row: the narrowing of the row blocks to
  bfloat16 is the identity on exact values, each matrix product into a zero accumulator is the plain sum over the
  contracted index, and the one-row bias is repeated down the rows.
  When the block's rows are rows of the feature arrays, the weight operands are the transposed halves of the gate's
  weight and the bias row is the gate's bias, this is the gated select at the array entry the block entry lies at.
-/

open scoped BigOperators

noncomputable section

namespace Cert.KernelIdeal.Payload

open Cert.KernelIdeal Cert.KernelIdeal.Gen Idealize.ShloMosaic Idealize.ShloMosaic.ValueIdx
open Cert.GatedSelect

section Trees

variable {F : FTy → Type} [FloatOps F]

/-- One matrix product of the body: a row block, narrowed, times a weight operand, into the zero accumulator. -/
def mxu (x : Vec F S5000x128 .f32) (w : Vec F S128x128 .bf16) : FVec F S5000x128 .f32 :=
  matmul dot_S5000x128_S128x128_S5000x128_1_0_0_1_n_n none (truncf .bf16 x bitsLt_bf16_f32)
    (shapeCast S128x128 w shapeCasts_S128x128_S128x128) (constant S5000x128 .f32 0x00000000#32)

/-- The bias row repeated down the 5000 rows. -/
def biasRows (bb : Vec F S1x128 .f32) : FVec F S5000x128 .f32 :=
  broadcastTo S5000x128 (shapeCast S1x128 bb shapeCasts_S1x128_S1x128) broadcasts_S1x128_S5000x128

/-- The first store's value as a tree of whole-block operations. -/
theorem pay2_tree (x0 x1 : Vec F S5000x128 .f32) (wa wb : Vec F S128x128 .bf16) (bb : Vec F S1x128 .f32) :
    k0_pay2 x0 x1 wa wb bb = addf x1 (mulf (logistic (addf (addf (mxu x0 wa) (mxu x1 wb)) (biasRows bb))) (subf x0 x1)) := rfl

/-- The second store's value as the same tree over its own blocks. -/
theorem pay1_tree (x0 x1 : Vec F S5000x128 .f32) (wa wb : Vec F S128x128 .bf16) (bb : Vec F S1x128 .f32) :
    k0_pay1 x0 x1 (k0_pay3 x0 x1 wa wb) bb
      = addf x1 (mulf (logistic (addf (addf (mxu x0 wa) (mxu x1 wb)) (biasRows bb))) (subf x0 x1)) := rfl

end Trees

/-- One matrix product of the body at entry (p, q): the sum over the 128 contracted columns. -/
theorem mxu_apply (x : S5000x128.Idx → EReal) (w : S128x128.Idx → EReal) (p : Fin 5000) (q : Fin 128) :
    mxu (F := Ideal) x w (ix2 p q) = ∑ k : Fin 128, x (ix2 p k) * w (ix2 k q) := by
  unfold mxu
  rw [shapeCast_self]
  exact Cert.Lib.PlainDot.matmul_zero_apply dot_S5000x128_S128x128_S5000x128_1_0_0_1_n_n rfl rfl rfl rfl rfl rfl none _ _ p q

/-- The bias row repeated down the rows, at entry (p, q). -/
theorem bias_apply (bb : S1x128.Idx → EReal) (p : Fin 5000) (q : Fin 128) :
    biasRows (F := Ideal) bb (ix2 p q) = bb (ix2 (0 : Fin 1) q) := by
  unfold biasRows
  rw [shapeCast_self]
  exact broadcastTo_1b_ab_apply bb broadcasts_S1x128_S5000x128 p q

/-- The tree at entry (p, q), at the exact values. -/
theorem tree_apply (x0 x1 : S5000x128.Idx → EReal) (wa wb : S128x128.Idx → EReal) (bb : S1x128.Idx → EReal)
    (p : Fin 5000) (q : Fin 128) :
    addf (F := Ideal) (φ := .f32) x1 (mulf (F := Ideal) (logistic (F := Ideal) (addf (F := Ideal) (addf (F := Ideal) (mxu (F := Ideal) x0 wa) (mxu (F := Ideal) x1 wb)) (biasRows (F := Ideal) bb)))
        (subf (F := Ideal) x0 x1)) (ix2 p q)
      = x1 (ix2 p q) + Ideal.logistic ((∑ k : Fin 128, x0 (ix2 p k) * wa (ix2 k q)) + (∑ k : Fin 128, x1 (ix2 p k) * wb (ix2 k q))
          + bb (ix2 (0 : Fin 1) q)) * (x0 (ix2 p q) - x1 (ix2 p q)) := by
  show x1 (ix2 p q) + Ideal.logistic ((mxu (F := Ideal) x0 wa (ix2 p q) + mxu (F := Ideal) x1 wb (ix2 p q)) + biasRows (F := Ideal) bb (ix2 p q))
      * (x0 (ix2 p q) - x1 (ix2 p q)) = _
  rw [mxu_apply, mxu_apply, bias_apply]

/-- The first store's value at entry (p, q). -/
theorem pay2_apply (x0 x1 : S5000x128.Idx → EReal) (wa wb : S128x128.Idx → EReal) (bb : S1x128.Idx → EReal)
    (p : Fin 5000) (q : Fin 128) :
    k0_pay2 (F := Ideal) x0 x1 wa wb bb (ix2 p q)
      = x1 (ix2 p q) + Ideal.logistic ((∑ k : Fin 128, x0 (ix2 p k) * wa (ix2 k q)) + (∑ k : Fin 128, x1 (ix2 p k) * wb (ix2 k q))
          + bb (ix2 (0 : Fin 1) q)) * (x0 (ix2 p q) - x1 (ix2 p q)) :=
  (congrFun (pay2_tree (F := Ideal) x0 x1 wa wb bb) (ix2 p q)).trans (tree_apply x0 x1 wa wb bb p q)

/-- The second store's value at entry (p, q): the same formula over the other pair of row blocks and weights. -/
theorem pay1_apply (x0 x1 : S5000x128.Idx → EReal) (wa wb : S128x128.Idx → EReal) (bb : S1x128.Idx → EReal)
    (p : Fin 5000) (q : Fin 128) :
    k0_pay1 (F := Ideal) x0 x1 (k0_pay3 (F := Ideal) x0 x1 wa wb) bb (ix2 p q)
      = x1 (ix2 p q) + Ideal.logistic ((∑ k : Fin 128, x0 (ix2 p k) * wa (ix2 k q)) + (∑ k : Fin 128, x1 (ix2 p k) * wb (ix2 k q))
          + bb (ix2 (0 : Fin 1) q)) * (x0 (ix2 p q) - x1 (ix2 p q)) :=
  (congrFun (pay1_tree (F := Ideal) x0 x1 wa wb bb) (ix2 p q)).trans (tree_apply x0 x1 wa wb bb p q)

/-- The formula is the gated select at array entry i, when the block's row p is the arrays' row (i 0), its column q the
    arrays' column (i 1), the weight operands are the gate weight's two halves transposed, and the bias row is the gate's bias. -/
theorem formula_eq_gated (h0 h1 : Feat.Idx → EReal) (W : Wgt.Idx → EReal) (b : Bia.Idx → EReal)
    (x0 x1 : S5000x128.Idx → EReal) (wa wb : S128x128.Idx → EReal) (bb : S1x128.Idx → EReal)
    (p : Fin 5000) (q : Fin 128) (i : Feat.Idx)
    (hx0 : ∀ k : Fin 128, x0 (ix2 p k) = h0 (ix2 (i 0) k)) (hx1 : ∀ k : Fin 128, x1 (ix2 p k) = h1 (ix2 (i 0) k))
    (hwa : ∀ k : Fin 128, wa (ix2 k q) = W (ix2 (i 1) (lo k))) (hwb : ∀ k : Fin 128, wb (ix2 k q) = W (ix2 (i 1) (hi k)))
    (hbb : bb (ix2 (0 : Fin 1) q) = b (ix1 (i 1))) (he0 : x0 (ix2 p q) = h0 i) (he1 : x1 (ix2 p q) = h1 i) :
    x1 (ix2 p q) + Ideal.logistic ((∑ k : Fin 128, x0 (ix2 p k) * wa (ix2 k q)) + (∑ k : Fin 128, x1 (ix2 p k) * wb (ix2 k q))
          + bb (ix2 (0 : Fin 1) q)) * (x0 (ix2 p q) - x1 (ix2 p q))
      = gated h0 h1 W b i := by
  unfold gated logit
  rw [he0, he1, hbb]
  simp only [hx0, hx1, hwa, hwb]

end Cert.KernelIdeal.Payload

end
-- ==== Proof.HostOperands.lean ====
import proofs.«157193_g42941083026054_cont_8to1_b_680_16_alg».proof.Proof.Gen.KernelIdeal.Frame
import proofs.«157193_g42941083026054_cont_8to1_b_680_16_alg».proof.Proof.Spec
import Idealize.ShloMosaic.Lib.ValueLayout
import Idealize.ShloMosaic.Lib.StableHlo.Run

/-!
  What the kernel's weight and bias operands hold when the region is entered.

  Before the region the host cuts each gate weight W (128 outputs by 256 inputs) into its two column halves,
  transposes each half and narrows it to bfloat16 (the identity on exact values), and reshapes each bias to one row.
  So the operand made from the first half holds, at (k, q), the weight W(q, k); the one made from the second half
  holds W(q, 128 + k); and the bias row holds b(q) at (0, q).
-/

noncomputable section

namespace Cert.KernelIdeal.HostOperands

open Cert.KernelIdeal Cert.KernelIdeal.Gen Idealize.ShloMosaic Idealize.ShloMosaic.TcCoe Idealize.SL.Sem
open Idealize.ShloMosaic.StableHlo Idealize.ShloMosaic.ValueIdx Cert.GatedSelect

variable (m : (ℓ : Loc nD τ sig) → Buf (Elt Ideal) ℓ)

/-- A column half of a gate weight, transposed and narrowed: the operand at (k, q) is the weight at (q, o + k). -/
theorem half_apply (W : S128x256.Idx → EReal) (o : Nat) (hs : S128x256.Slices ![0, o] S128x128) (k q : Fin 128) (j : Fin 256)
    (hj : j.val = o + k.val) :
    truncf (F := Ideal) .bf16 (φ := .f32) (transpose S128x128 [1, 0] (extractStridedSlice S128x128 ![0, o] W hs) transposes_S128x128_S128x128_1_0)
        bitsLt_bf16_f32 (ix2 k q) = W (ix2 q j) := by
  show transpose S128x128 [1, 0] (extractStridedSlice S128x128 ![0, o] W hs) transposes_S128x128_S128x128_1_0 (ix2 k q) = _
  rw [transpose_ix2_apply]
  exact slice2_axis1_apply o W hs q k j hj

/-- The first weight operand of the first gate. -/
theorem w1a_eq (c : Dev nD) : (V m c main_call0_v2 : S128x128.Idx → EReal)
    = truncf (F := Ideal) .bf16 (φ := .f32) (transpose S128x128 [1, 0] (extractStridedSlice S128x128 ![0, 0] (m ((c : Thread nD τ).loc main_arg4)) slices_S128x256_S128x128_0_0) transposes_S128x128_S128x128_1_0) bitsLt_bf16_f32 := by
  dsimp only [Gen.V, Gen.hostOps0]
  after_results
  rfl

/-- The second weight operand of the first gate. -/
theorem w1b_eq (c : Dev nD) : (V m c main_call0_v5 : S128x128.Idx → EReal)
    = truncf (F := Ideal) .bf16 (φ := .f32) (transpose S128x128 [1, 0] (extractStridedSlice S128x128 ![0, 128] (m ((c : Thread nD τ).loc main_arg4)) slices_S128x256_S128x128_0_128) transposes_S128x128_S128x128_1_0) bitsLt_bf16_f32 := by
  dsimp only [Gen.V, Gen.hostOps0]
  after_results
  rfl

/-- The first weight operand of the second gate. -/
theorem w3a_eq (c : Dev nD) : (V m c main_call0_v8 : S128x128.Idx → EReal)
    = truncf (F := Ideal) .bf16 (φ := .f32) (transpose S128x128 [1, 0] (extractStridedSlice S128x128 ![0, 0] (m ((c : Thread nD τ).loc main_arg6)) slices_S128x256_S128x128_0_0) transposes_S128x128_S128x128_1_0) bitsLt_bf16_f32 := by
  dsimp only [Gen.V, Gen.hostOps0]
  after_results
  rfl

/-- The second weight operand of the second gate. -/
theorem w3b_eq (c : Dev nD) : (V m c main_call0_v11 : S128x128.Idx → EReal)
    = truncf (F := Ideal) .bf16 (φ := .f32) (transpose S128x128 [1, 0] (extractStridedSlice S128x128 ![0, 128] (m ((c : Thread nD τ).loc main_arg6)) slices_S128x256_S128x128_0_128) transposes_S128x128_S128x128_1_0) bitsLt_bf16_f32 := by
  dsimp only [Gen.V, Gen.hostOps0]
  after_results
  rfl

/-- The first gate's bias as one row. -/
theorem b1_eq (c : Dev nD) : (V m c main_call0_v12 : S1x128.Idx → EReal)
    = shapeCast S1x128 (m ((c : Thread nD τ).loc main_arg5)) shapeCasts_S128_S1x128 := by
  dsimp only [Gen.V, Gen.hostOps0]
  after_results
  rfl

/-- The second gate's bias as one row. -/
theorem b3_eq (c : Dev nD) : (V m c main_call0_v13 : S1x128.Idx → EReal)
    = shapeCast S1x128 (m ((c : Thread nD τ).loc main_arg7)) shapeCasts_S128_S1x128 := by
  dsimp only [Gen.V, Gen.hostOps0]
  after_results
  rfl

theorem w1a_apply (c : Dev nD) (k q : Fin 128) :
    (V m c main_call0_v2 : S128x128.Idx → EReal) (ix2 k q) = m ((c : Thread nD τ).loc main_arg4) (ix2 q (lo k)) := by
  rw [w1a_eq]; exact half_apply _ 0 _ k q (lo k) (Nat.zero_add _).symm

theorem w1b_apply (c : Dev nD) (k q : Fin 128) :
    (V m c main_call0_v5 : S128x128.Idx → EReal) (ix2 k q) = m ((c : Thread nD τ).loc main_arg4) (ix2 q (hi k)) := by
  rw [w1b_eq]; exact half_apply _ 128 _ k q (hi k) rfl

theorem w3a_apply (c : Dev nD) (k q : Fin 128) :
    (V m c main_call0_v8 : S128x128.Idx → EReal) (ix2 k q) = m ((c : Thread nD τ).loc main_arg6) (ix2 q (lo k)) := by
  rw [w3a_eq]; exact half_apply _ 0 _ k q (lo k) (Nat.zero_add _).symm

theorem w3b_apply (c : Dev nD) (k q : Fin 128) :
    (V m c main_call0_v11 : S128x128.Idx → EReal) (ix2 k q) = m ((c : Thread nD τ).loc main_arg6) (ix2 q (hi k)) := by
  rw [w3b_eq]; exact half_apply _ 128 _ k q (hi k) rfl

theorem b1_apply (c : Dev nD) (q : Fin 128) :
    (V m c main_call0_v12 : S1x128.Idx → EReal) (ix2 (0 : Fin 1) q) = m ((c : Thread nD τ).loc main_arg5) (ix1 q) := by
  rw [b1_eq]; exact shapeCast_a_1a_apply _ _ 0 q

theorem b3_apply (c : Dev nD) (q : Fin 128) :
    (V m c main_call0_v13 : S1x128.Idx → EReal) (ix2 (0 : Fin 1) q) = m ((c : Thread nD τ).loc main_arg7) (ix1 q) := by
  rw [b3_eq]; exact shapeCast_a_1a_apply _ _ 0 q

end Cert.KernelIdeal.HostOperands

end
-- ==== Proof.Blocks.lean ====
import proofs.«157193_g42941083026054_cont_8to1_b_680_16_alg».proof.Proof.KernelValueP
import proofs.«157193_g42941083026054_cont_8to1_b_680_16_alg».proof.Proof.Payload
import proofs.«157193_g42941083026054_cont_8to1_b_680_16_alg».proof.Proof.HostOperands

/-!
  From the blocks to the arrays: the idealized kernel's two results as functions of its arguments.

  The grid has 20 points; point t works on rows 5000 t to 5000 t + 4999 of every feature array and on the whole of each
  weight operand and bias row. So the element of a row block at (p, q) is the array's element at (5000 t + p, q), and
  what point t writes back to either result is, at (p, q), the gated select at (5000 t + p, q): the block of ONE
  function of the arguments. Every row r lies in the block of point r / 5000, so the 20 blocks cover each result and
  it ends holding that function.
-/

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.GatedSelect Cert.KernelIdeal.Payload Cert.KernelIdeal.HostOperands

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 20 points: a row window's block index is (t, 0), a weight's or a
    bias's is (0, 0). -/
theorem idx_facts : ∀ t : Fin cfg0.N, win0_10.index t (0 : Fin 2) = t.val ∧ win0_10.index t (1 : Fin 2) = 0
    ∧ win0_11.index t (0 : Fin 2) = t.val ∧ win0_11.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Every one of the 20 row blocks is some point's. -/
theorem idx_onto : ∀ q0 : Fin 20, ∃ t : Fin cfg0.N, t.val = q0.val :=
  (by decide +kernel : ∀ q0 : Fin 20, ∃ t : Fin grid0.N, t.val = q0.val)

/-- The grid has 20 points, so a point's rows stay inside the 100000. -/
theorem row_lt (t : Fin cfg0.N) (y : S5000x128.Idx) : t.val * 5000 + (y 0).val < 100000 := by
  have ht : t.val < 20 := (N_0 ▸ t.isLt : t.val < 20)
  have hy : (y 0).val < 5000 := (y 0).isLt
  omega

/-- The array index under a row block's index: row 5000 t + p, the same column. -/
abbrev rowIdx (t : Fin cfg0.N) (y : S5000x128.Idx) : Feat.Idx :=
  ix2 (⟨t.val * 5000 + (y 0).val, row_lt t y⟩ : Fin 100000) (⟨(y 1).val, (y 1).isLt⟩ : Fin 128)

/-! ## The input windows' blocks -/

theorem rows0 (c : Dev nD) (t : Fin cfg0.N) (y : S5000x128.Idx) :
    iblk m c 0 t y = m ((c : Thread nD τ).loc main_arg0) (rowIdx t y) := by
  obtain ⟨f10a, f10b, f11a, f11b, f0a, f0b, f1a, f1b, f2a, f2b, f3a, f3b, f4a, f4b, f5a, f5b, f6a, f6b, f7a, f7b, f8a, f8b, f9a, f9b⟩ := idx_facts t
  have hidx : ((cfg0.win 0).blk t).view.emb y = rowIdx t y := by
    funext a; apply Fin.ext
    match a with
    | ⟨0, _⟩ => show win0_0.index t (0 : Fin 2) * 5000 + 1 * (y 0).val = t.val * 5000 + (y 0).val; omega
    | ⟨1, _⟩ => show win0_0.index t (1 : Fin 2) * 128 + 1 * (y 1).val = (y 1).val; omega
  show V m c main_arg0 (((cfg0.win 0).blk t).view.emb y) = _
  exact (congrFun (V_main_arg0 m c) _).trans (congrArg (m ((c : Thread nD τ).loc main_arg0)) hidx)

theorem rows1 (c : Dev nD) (t : Fin cfg0.N) (y : S5000x128.Idx) :
    iblk m c 1 t y = m ((c : Thread nD τ).loc main_arg2) (rowIdx t y) := by
  obtain ⟨f10a, f10b, f11a, f11b, f0a, f0b, f1a, f1b, f2a, f2b, f3a, f3b, f4a, f4b, f5a, f5b, f6a, f6b, f7a, f7b, f8a, f8b, f9a, f9b⟩ := idx_facts t
  have hidx : ((cfg0.win 1).blk t).view.emb y = rowIdx t y := by
    funext a; apply Fin.ext
    match a with
    | ⟨0, _⟩ => show win0_1.index t (0 : Fin 2) * 5000 + 1 * (y 0).val = t.val * 5000 + (y 0).val; omega
    | ⟨1, _⟩ => show win0_1.index t (1 : Fin 2) * 128 + 1 * (y 1).val = (y 1).val; omega
  show V m c main_arg2 (((cfg0.win 1).blk t).view.emb y) = _
  exact (congrFun (V_main_arg2 m c) _).trans (congrArg (m ((c : Thread nD τ).loc main_arg2)) hidx)

theorem rows2 (c : Dev nD) (t : Fin cfg0.N) (y : S5000x128.Idx) :
    iblk m c 2 t y = m ((c : Thread nD τ).loc main_arg1) (rowIdx t y) := by
  obtain ⟨f10a, f10b, f11a, f11b, f0a, f0b, f1a, f1b, f2a, f2b, f3a, f3b, f4a, f4b, f5a, f5b, f6a, f6b, f7a, f7b, f8a, f8b, f9a, f9b⟩ := idx_facts t
  have hidx : ((cfg0.win 2).blk t).view.emb y = rowIdx t y := by
    funext a; apply Fin.ext
    match a with
    | ⟨0, _⟩ => show win0_2.index t (0 : Fin 2) * 5000 + 1 * (y 0).val = t.val * 5000 + (y 0).val; omega
    | ⟨1, _⟩ => show win0_2.index t (1 : Fin 2) * 128 + 1 * (y 1).val = (y 1).val; omega
  show V m c main_arg1 (((cfg0.win 2).blk t).view.emb y) = _
  exact (congrFun (V_main_arg1 m c) _).trans (congrArg (m ((c : Thread nD τ).loc main_arg1)) hidx)

theorem rows3 (c : Dev nD) (t : Fin cfg0.N) (y : S5000x128.Idx) :
    iblk m c 3 t y = m ((c : Thread nD τ).loc main_arg3) (rowIdx t y) := by
  obtain ⟨f10a, f10b, f11a, f11b, f0a, f0b, f1a, f1b, f2a, f2b, f3a, f3b, f4a, f4b, f5a, f5b, f6a, f6b, f7a, f7b, f8a, f8b, f9a, f9b⟩ := idx_facts t
  have hidx : ((cfg0.win 3).blk t).view.emb y = rowIdx t y := by
    funext a; apply Fin.ext
    match a with
    | ⟨0, _⟩ => show win0_3.index t (0 : Fin 2) * 5000 + 1 * (y 0).val = t.val * 5000 + (y 0).val; omega
    | ⟨1, _⟩ => show win0_3.index t (1 : Fin 2) * 128 + 1 * (y 1).val = (y 1).val; omega
  show V m c main_arg3 (((cfg0.win 3).blk t).view.emb y) = _
  exact (congrFun (V_main_arg3 m c) _).trans (congrArg (m ((c : Thread nD τ).loc main_arg3)) hidx)

theorem wts4 (c : Dev nD) (t : Fin cfg0.N) (y : S128x128.Idx) :
    iblk m c 4 t y = (V m c main_call0_v2 : S128x128.Idx → EReal) y := by
  obtain ⟨f10a, f10b, f11a, f11b, f0a, f0b, f1a, f1b, f2a, f2b, f3a, f3b, f4a, f4b, f5a, f5b, f6a, f6b, f7a, f7b, f8a, f8b, f9a, f9b⟩ := idx_facts t
  have hidx : ((cfg0.win 4).blk t).view.emb y = y := by
    funext a; apply Fin.ext
    match a with
    | ⟨0, _⟩ => show win0_4.index t (0 : Fin 2) * 128 + 1 * (y 0).val = (y 0).val; omega
    | ⟨1, _⟩ => show win0_4.index t (1 : Fin 2) * 128 + 1 * (y 1).val = (y 1).val; omega
  show V m c main_call0_v2 (((cfg0.win 4).blk t).view.emb y) = _
  exact congrArg (V m c main_call0_v2 : S128x128.Idx → EReal) hidx

theorem wts5 (c : Dev nD) (t : Fin cfg0.N) (y : S128x128.Idx) :
    iblk m c 5 t y = (V m c main_call0_v5 : S128x128.Idx → EReal) y := by
  obtain ⟨f10a, f10b, f11a, f11b, f0a, f0b, f1a, f1b, f2a, f2b, f3a, f3b, f4a, f4b, f5a, f5b, f6a, f6b, f7a, f7b, f8a, f8b, f9a, f9b⟩ := idx_facts t
  have hidx : ((cfg0.win 5).blk t).view.emb y = y := by
    funext a; apply Fin.ext
    match a with
    | ⟨0, _⟩ => show win0_5.index t (0 : Fin 2) * 128 + 1 * (y 0).val = (y 0).val; omega
    | ⟨1, _⟩ => show win0_5.index t (1 : Fin 2) * 128 + 1 * (y 1).val = (y 1).val; omega
  show V m c main_call0_v5 (((cfg0.win 5).blk t).view.emb y) = _
  exact congrArg (V m c main_call0_v5 : S128x128.Idx → EReal) hidx

theorem bias6 (c : Dev nD) (t : Fin cfg0.N) (y : S1x128.Idx) :
    iblk m c 6 t y = (V m c main_call0_v12 : S1x128.Idx → EReal) y := by
  obtain ⟨f10a, f10b, f11a, f11b, f0a, f0b, f1a, f1b, f2a, f2b, f3a, f3b, f4a, f4b, f5a, f5b, f6a, f6b, f7a, f7b, f8a, f8b, f9a, f9b⟩ := idx_facts t
  have hidx : ((cfg0.win 6).blk t).view.emb y = y := by
    funext a; apply Fin.ext
    match a with
    | ⟨0, _⟩ => show win0_6.index t (0 : Fin 2) * 1 + 1 * (y 0).val = (y 0).val; omega
    | ⟨1, _⟩ => show win0_6.index t (1 : Fin 2) * 128 + 1 * (y 1).val = (y 1).val; omega
  show V m c main_call0_v12 (((cfg0.win 6).blk t).view.emb y) = _
  exact congrArg (V m c main_call0_v12 : S1x128.Idx → EReal) hidx

theorem wts7 (c : Dev nD) (t : Fin cfg0.N) (y : S128x128.Idx) :
    iblk m c 7 t y = (V m c main_call0_v8 : S128x128.Idx → EReal) y := by
  obtain ⟨f10a, f10b, f11a, f11b, f0a, f0b, f1a, f1b, f2a, f2b, f3a, f3b, f4a, f4b, f5a, f5b, f6a, f6b, f7a, f7b, f8a, f8b, f9a, f9b⟩ := idx_facts t
  have hidx : ((cfg0.win 7).blk t).view.emb y = y := by
    funext a; apply Fin.ext
    match a with
    | ⟨0, _⟩ => show win0_7.index t (0 : Fin 2) * 128 + 1 * (y 0).val = (y 0).val; omega
    | ⟨1, _⟩ => show win0_7.index t (1 : Fin 2) * 128 + 1 * (y 1).val = (y 1).val; omega
  show V m c main_call0_v8 (((cfg0.win 7).blk t).view.emb y) = _
  exact congrArg (V m c main_call0_v8 : S128x128.Idx → EReal) hidx

theorem wts8 (c : Dev nD) (t : Fin cfg0.N) (y : S128x128.Idx) :
    iblk m c 8 t y = (V m c main_call0_v11 : S128x128.Idx → EReal) y := by
  obtain ⟨f10a, f10b, f11a, f11b, f0a, f0b, f1a, f1b, f2a, f2b, f3a, f3b, f4a, f4b, f5a, f5b, f6a, f6b, f7a, f7b, f8a, f8b, f9a, f9b⟩ := idx_facts t
  have hidx : ((cfg0.win 8).blk t).view.emb y = y := by
    funext a; apply Fin.ext
    match a with
    | ⟨0, _⟩ => show win0_8.index t (0 : Fin 2) * 128 + 1 * (y 0).val = (y 0).val; omega
    | ⟨1, _⟩ => show win0_8.index t (1 : Fin 2) * 128 + 1 * (y 1).val = (y 1).val; omega
  show V m c main_call0_v11 (((cfg0.win 8).blk t).view.emb y) = _
  exact congrArg (V m c main_call0_v11 : S128x128.Idx → EReal) hidx

theorem bias9 (c : Dev nD) (t : Fin cfg0.N) (y : S1x128.Idx) :
    iblk m c 9 t y = (V m c main_call0_v13 : S1x128.Idx → EReal) y := by
  obtain ⟨f10a, f10b, f11a, f11b, f0a, f0b, f1a, f1b, f2a, f2b, f3a, f3b, f4a, f4b, f5a, f5b, f6a, f6b, f7a, f7b, f8a, f8b, f9a, f9b⟩ := idx_facts t
  have hidx : ((cfg0.win 9).blk t).view.emb y = y := by
    funext a; apply Fin.ext
    match a with
    | ⟨0, _⟩ => show win0_9.index t (0 : Fin 2) * 1 + 1 * (y 0).val = (y 0).val; omega
    | ⟨1, _⟩ => show win0_9.index t (1 : Fin 2) * 128 + 1 * (y 1).val = (y 1).val; omega
  show V m c main_call0_v13 (((cfg0.win 9).blk t).view.emb y) = _
  exact congrArg (V m c main_call0_v13 : S1x128.Idx → EReal) hidx

/-! ## A stored block's element is the gated select at the array index under it -/

/-- The first store. -/
theorem store10_gated (h0 h1 : Feat.Idx → EReal) (W : Wgt.Idx → EReal) (b : Bia.Idx → EReal)
    (x0 x1 : S5000x128.Idx → EReal) (wa wb : S128x128.Idx → EReal) (bb : S1x128.Idx → EReal) (j : S5000x128.Idx) (i : Feat.Idx)
    (hx0 : ∀ k : Fin 128, x0 (ix2 (j 0) k) = h0 (ix2 (i 0) k)) (hx1 : ∀ k : Fin 128, x1 (ix2 (j 0) k) = h1 (ix2 (i 0) k))
    (hwa : ∀ k : Fin 128, wa (ix2 k (j 1)) = W (ix2 (i 1) (lo k))) (hwb : ∀ k : Fin 128, wb (ix2 k (j 1)) = W (ix2 (i 1) (hi k)))
    (hbb : bb (ix2 (0 : Fin 1) (j 1)) = b (ix1 (i 1))) (he0 : x0 j = h0 i) (he1 : x1 j = h1 i) :
    k0_pay2 (F := Ideal) x0 x1 wa wb bb j = gated h0 h1 W b i := by
  obtain ⟨p, q, rfl⟩ : ∃ (p : Fin 5000) (q : Fin 128), j = ix2 p q := ⟨j 0, j 1, eq_ix2 j⟩
  exact (pay2_apply x0 x1 wa wb bb p q).trans (formula_eq_gated h0 h1 W b x0 x1 wa wb bb p q i hx0 hx1 hwa hwb hbb he0 he1)

/-- The second store. -/
theorem store11_gated (h0 h1 : Feat.Idx → EReal) (W : Wgt.Idx → EReal) (b : Bia.Idx → EReal)
    (x0 x1 : S5000x128.Idx → EReal) (wa wb : S128x128.Idx → EReal) (bb : S1x128.Idx → EReal) (j : S5000x128.Idx) (i : Feat.Idx)
    (hx0 : ∀ k : Fin 128, x0 (ix2 (j 0) k) = h0 (ix2 (i 0) k)) (hx1 : ∀ k : Fin 128, x1 (ix2 (j 0) k) = h1 (ix2 (i 0) k))
    (hwa : ∀ k : Fin 128, wa (ix2 k (j 1)) = W (ix2 (i 1) (lo k))) (hwb : ∀ k : Fin 128, wb (ix2 k (j 1)) = W (ix2 (i 1) (hi k)))
    (hbb : bb (ix2 (0 : Fin 1) (j 1)) = b (ix1 (i 1))) (he0 : x0 j = h0 i) (he1 : x1 j = h1 i) :
    k0_pay1 (F := Ideal) x0 x1 (k0_pay3 (F := Ideal) x0 x1 wa wb) bb j = gated h0 h1 W b i := by
  obtain ⟨p, q, rfl⟩ : ∃ (p : Fin 5000) (q : Fin 128), j = ix2 p q := ⟨j 0, j 1, eq_ix2 j⟩
  exact (pay1_apply x0 x1 wa wb bb p q).trans (formula_eq_gated h0 h1 W b x0 x1 wa wb bb p q i hx0 hx1 hwa hwb hbb he0 he1)

/-! ## The first result -/

theorem emb10 (t : Fin cfg0.N) (y : S5000x128.Idx) : ((cfg0.win 10).blk t).view.emb y = rowIdx t y := by
  obtain ⟨f10a, f10b, f11a, f11b, f0a, f0b, f1a, f1b, f2a, f2b, f3a, f3b, f4a, f4b, f5a, f5b, f6a, f6b, f7a, f7b, f8a, f8b, f9a, f9b⟩ := idx_facts t
  funext a; apply Fin.ext
  match a with
  | ⟨0, _⟩ => show win0_10.index t (0 : Fin 2) * 5000 + 1 * (y 0).val = t.val * 5000 + (y 0).val; omega
  | ⟨1, _⟩ => show win0_10.index t (1 : Fin 2) * 128 + 1 * (y 1).val = (y 1).val; omega

/-- An index of the array is in point t's block iff each coordinate is in the block's range on its axis. -/
theorem mem_blk10 (t : Fin cfg0.N) (i : S100000x128.Idx) :
    i ∈ ((cfg0.win 10).blk t).view.set ↔ ∀ a : Fin 2, win0_10.index t a * S5000x128.size a ≤ (i a).val ∧ (i a).val < win0_10.index t a * S5000x128.size a + S5000x128.size a := by
  show i ∈ ((View.whole main_v0_0).slice (win0_10.rect t)).set ↔ _
  rw [View.set_slice_whole, Rect.mem_set_unit]
  exact Iff.rfl

/-- Every row of the array lies in the block of the point its number divided by 5000 names. -/
theorem cover10 (i : S100000x128.Idx) : ∃ t : Fin cfg0.N, (cfg0.win 10).flush t = true ∧ i ∈ ((cfg0.win 10).blk t).view.set := by
  have hi0 : (i 0).val < 100000 := (i 0).isLt
  have hi1 : (i 1).val < 128 := (i 1).isLt
  obtain ⟨t, ht⟩ := idx_onto ⟨(i 0).val / 5000, by omega⟩
  obtain ⟨f10a, f10b, f11a, f11b, f0a, f0b, f1a, f1b, f2a, f2b, f3a, f3b, f4a, f4b, f5a, f5b, f6a, f6b, f7a, f7b, f8a, f8b, f9a, f9b⟩ := idx_facts t
  have q0 : t.val = (i 0).val / 5000 := ht
  refine ⟨t, flush0_10 t, ?_⟩
  rw [mem_blk10]
  intro a
  match a with
  | ⟨0, _⟩ => show win0_10.index t (0 : Fin 2) * 5000 ≤ (i 0).val ∧ (i 0).val < win0_10.index t (0 : Fin 2) * 5000 + 5000; omega
  | ⟨1, _⟩ => show win0_10.index t (1 : Fin 2) * 128 ≤ (i 1).val ∧ (i 1).val < win0_10.index t (1 : Fin 2) * 128 + 128; omega

/-- What point t writes back to the first result is block t of the gated select of the first pair of features. -/
theorem flushed10_eq (c : Dev nD) (t : Fin cfg0.N) :
    (dats m 0 c).flushed 10 t = ((cfg0.win 10).blk t).view.read (Elt Ideal) (gated (m ((c : Thread nD τ).loc main_arg0)) (m ((c : Thread nD τ).loc main_arg2)) (m ((c : Thread nD τ).loc main_arg4)) (m ((c : Thread nD τ).loc main_arg5))) := by
  rw [Cert.KernelIdeal.ValueP.flushed10]
  unfold out0_10
  rw [View.canon_unit_zero hz]
  simp only [View.ld_unit_zero (S := S5000x128) hz, View.ld_unit_zero (S := S128x128) hz, View.ld_unit_zero (S := S1x128) hz]
  funext j
  show k0_pay2 (F := Ideal) (iblk m c 0 t) (iblk m c 1 t) (iblk m c 4 t) (iblk m c 5 t) (iblk m c 6 t) j
      = gated (m ((c : Thread nD τ).loc main_arg0)) (m ((c : Thread nD τ).loc main_arg2)) (m ((c : Thread nD τ).loc main_arg4)) (m ((c : Thread nD τ).loc main_arg5)) (((cfg0.win 10).blk t).view.emb j)
  rw [emb10 t j]
  exact store10_gated (m ((c : Thread nD τ).loc main_arg0)) (m ((c : Thread nD τ).loc main_arg2)) (m ((c : Thread nD τ).loc main_arg4)) (m ((c : Thread nD τ).loc main_arg5))
    (iblk m c 0 t) (iblk m c 1 t) (iblk m c 4 t) (iblk m c 5 t) (iblk m c 6 t) j (rowIdx t j)
    (fun k => rows0 m c t (ix2 (j 0) k)) (fun k => rows1 m c t (ix2 (j 0) k))
    (fun k => (wts4 m c t (ix2 k (j 1))).trans (w1a_apply m c k (j 1))) (fun k => (wts5 m c t (ix2 k (j 1))).trans (w1b_apply m c k (j 1)))
    ((bias6 m c t (ix2 (0 : Fin 1) (j 1))).trans (b1_apply m c (j 1))) (rows0 m c t j) (rows1 m c t j)

/-- The first result after the run. -/
theorem final10 (c : Dev nD) : (dats m 0 c).arrAt 10 cfg0.N = gated (m ((c : Thread nD τ).loc main_arg0)) (m ((c : Thread nD τ).loc main_arg2)) (m ((c : Thread nD τ).loc main_arg4)) (m ((c : Thread nD τ).loc main_arg5)) :=
  (dats m 0 c).arrAt_eq_of_cover 10 _ (fun t _ => flushed10_eq m c t) cover10

/-! ## The second result -/

theorem emb11 (t : Fin cfg0.N) (y : S5000x128.Idx) : ((cfg0.win 11).blk t).view.emb y = rowIdx t y := by
  obtain ⟨f10a, f10b, f11a, f11b, f0a, f0b, f1a, f1b, f2a, f2b, f3a, f3b, f4a, f4b, f5a, f5b, f6a, f6b, f7a, f7b, f8a, f8b, f9a, f9b⟩ := idx_facts t
  funext a; apply Fin.ext
  match a with
  | ⟨0, _⟩ => show win0_11.index t (0 : Fin 2) * 5000 + 1 * (y 0).val = t.val * 5000 + (y 0).val; omega
  | ⟨1, _⟩ => show win0_11.index t (1 : Fin 2) * 128 + 1 * (y 1).val = (y 1).val; omega

/-- An index of the array is in point t's block iff each coordinate is in the block's range on its axis. -/
theorem mem_blk11 (t : Fin cfg0.N) (i : S100000x128.Idx) :
    i ∈ ((cfg0.win 11).blk t).view.set ↔ ∀ a : Fin 2, win0_11.index t a * S5000x128.size a ≤ (i a).val ∧ (i a).val < win0_11.index t a * S5000x128.size a + S5000x128.size a := by
  show i ∈ ((View.whole main_v0_1).slice (win0_11.rect t)).set ↔ _
  rw [View.set_slice_whole, Rect.mem_set_unit]
  exact Iff.rfl

/-- Every row of the array lies in the block of the point its number divided by 5000 names. -/
theorem cover11 (i : S100000x128.Idx) : ∃ t : Fin cfg0.N, (cfg0.win 11).flush t = true ∧ i ∈ ((cfg0.win 11).blk t).view.set := by
  have hi0 : (i 0).val < 100000 := (i 0).isLt
  have hi1 : (i 1).val < 128 := (i 1).isLt
  obtain ⟨t, ht⟩ := idx_onto ⟨(i 0).val / 5000, by omega⟩
  obtain ⟨f10a, f10b, f11a, f11b, f0a, f0b, f1a, f1b, f2a, f2b, f3a, f3b, f4a, f4b, f5a, f5b, f6a, f6b, f7a, f7b, f8a, f8b, f9a, f9b⟩ := idx_facts t
  have q0 : t.val = (i 0).val / 5000 := ht
  refine ⟨t, flush0_11 t, ?_⟩
  rw [mem_blk11]
  intro a
  match a with
  | ⟨0, _⟩ => show win0_11.index t (0 : Fin 2) * 5000 ≤ (i 0).val ∧ (i 0).val < win0_11.index t (0 : Fin 2) * 5000 + 5000; omega
  | ⟨1, _⟩ => show win0_11.index t (1 : Fin 2) * 128 ≤ (i 1).val ∧ (i 1).val < win0_11.index t (1 : Fin 2) * 128 + 128; omega

/-- What point t writes back to the second result is block t of the gated select of the second pair of features. -/
theorem flushed11_eq (c : Dev nD) (t : Fin cfg0.N) :
    (dats m 0 c).flushed 11 t = ((cfg0.win 11).blk t).view.read (Elt Ideal) (gated (m ((c : Thread nD τ).loc main_arg1)) (m ((c : Thread nD τ).loc main_arg3)) (m ((c : Thread nD τ).loc main_arg6)) (m ((c : Thread nD τ).loc main_arg7))) := by
  rw [Cert.KernelIdeal.ValueP.flushed11]
  unfold out0_11
  rw [View.canon_unit_zero hz]
  simp only [View.ld_unit_zero (S := S5000x128) hz, View.ld_unit_zero (S := S128x128) hz, View.ld_unit_zero (S := S1x128) hz]
  funext j
  show k0_pay1 (F := Ideal) (iblk m c 2 t) (iblk m c 3 t) (k0_pay3 (F := Ideal) (iblk m c 2 t) (iblk m c 3 t) (iblk m c 7 t) (iblk m c 8 t)) (iblk m c 9 t) j
      = gated (m ((c : Thread nD τ).loc main_arg1)) (m ((c : Thread nD τ).loc main_arg3)) (m ((c : Thread nD τ).loc main_arg6)) (m ((c : Thread nD τ).loc main_arg7)) (((cfg0.win 11).blk t).view.emb j)
  rw [emb11 t j]
  exact store11_gated (m ((c : Thread nD τ).loc main_arg1)) (m ((c : Thread nD τ).loc main_arg3)) (m ((c : Thread nD τ).loc main_arg6)) (m ((c : Thread nD τ).loc main_arg7))
    (iblk m c 2 t) (iblk m c 3 t) (iblk m c 7 t) (iblk m c 8 t) (iblk m c 9 t) j (rowIdx t j)
    (fun k => rows2 m c t (ix2 (j 0) k)) (fun k => rows3 m c t (ix2 (j 0) k))
    (fun k => (wts7 m c t (ix2 k (j 1))).trans (w3a_apply m c k (j 1))) (fun k => (wts8 m c t (ix2 k (j 1))).trans (w3b_apply m c k (j 1)))
    ((bias9 m c t (ix2 (0 : Fin 1) (j 1))).trans (b3_apply m c (j 1))) (rows2 m c t j) (rows3 m c t j)

/-- The second result after the run. -/
theorem final11 (c : Dev nD) : (dats m 0 c).arrAt 11 cfg0.N = gated (m ((c : Thread nD τ).loc main_arg1)) (m ((c : Thread nD τ).loc main_arg3)) (m ((c : Thread nD τ).loc main_arg6)) (m ((c : Thread nD τ).loc main_arg7)) :=
  (dats m 0 c).arrAt_eq_of_cover 11 _ (fun t _ => flushed11_eq m c t) cover11

/-! ## The run -/

/-- Every weakly fair execution of the idealized kernel ends with the two results at the gated selects of its
    arguments, the arguments unchanged. -/
theorem run : θ_run defs (onTc (τ := τ) (main (F := Ideal))) ⟨m, fun _ => 0, ρ⟩ fun r => ∀ c : Dev nD,
      r.2.mem ((c : Thread nD τ).loc main_v0_0) = gated (m ((c : Thread nD τ).loc main_arg0)) (m ((c : Thread nD τ).loc main_arg2)) (m ((c : Thread nD τ).loc main_arg4)) (m ((c : Thread nD τ).loc main_arg5))
      ∧ r.2.mem ((c : Thread nD τ).loc main_v0_1) = gated (m ((c : Thread nD τ).loc main_arg1)) (m ((c : Thread nD τ).loc main_arg3)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final10 m c), (h c).2.1.trans (final11 m c), (h c).2.2⟩)
    (Cert.KernelIdeal.ValueP.run_blocks m ρ)

end Cert.KernelIdeal.Blocks

end
-- ==== Proof.RefSide.lean ====
import proofs.«157193_g42941083026054_cont_8to1_b_680_16_alg».proof.Proof.ReferenceReadP
import proofs.«157193_g42941083026054_cont_8to1_b_680_16_alg».proof.Proof.Spec
import Idealize.ShloMosaic.Lib.Pipeline.Value
import Idealize.ShloMosaic.Lib.IdealHost

/-!
  The reference computes the gated select.

  The reference joins the two feature arrays side by side, multiplies the 256-column result by the transposed gate
  weight, adds the bias, takes g = 1 / (1 + exp(-z)) and returns g * h0 + (1 - g) * h1.
  Column k < 128 of the joined array is h0's column k and column 128 + k is h1's column k, so the contraction over the 256
  columns is the sum over h0's columns against the weight's first half plus the sum over h1's columns against its
  second half: the logit of the gated select. The quotient 1 / (1 + exp(-z)) is the logistic of z. Where h0 and h1 are
  real the convex blend is h1 + g * (h0 - h1).
  The second result is the same chain of operations applied to the other four arguments.
-/

open scoped BigOperators

noncomputable section

namespace Cert.ReferenceIdeal.RefSide

open Cert.ReferenceIdeal Cert.ReferenceIdeal.Gen Cert.ReferenceIdeal.ReadP Idealize.ShloMosaic Idealize.ShloMosaic.ValueIdx
open Cert.GatedSelect

/-- A column of the joined array in its first half is the first array's column. -/
theorem joined_lo (x0 x2 : Feat.Idx → EReal) (r : Fin 100000) (c k : Fin 128) :
    val_main_v0 (F := Ideal) x0 x2 (lidx_main_v2 (ix2 r c) (lo k)) = x0 (ix2 r k) := by
  unfold val_main_v0
  exact concatenate_pair_apply_left (t := S100000x256) 1 x0 x2 concatenates_S100000x128_S100000x128_S100000x256_d1
    (lidx_main_v2 (ix2 r c) (lo k)) rfl (ix2 r k) (fun b => match b with | ⟨0, _⟩ => rfl | ⟨1, _⟩ => rfl)

/-- A column of the joined array in its second half is the second array's column, 128 to the left. -/
theorem joined_hi (x0 x2 : Feat.Idx → EReal) (r : Fin 100000) (c k : Fin 128) :
    val_main_v0 (F := Ideal) x0 x2 (lidx_main_v2 (ix2 r c) (hi k)) = x2 (ix2 r k) := by
  unfold val_main_v0
  exact concatenate_pair_apply_right (t := S100000x256) 1 x0 x2 concatenates_S100000x128_S100000x128_S100000x256_d1
    (lidx_main_v2 (ix2 r c) (hi k)) rfl rfl (ix2 r k)
    (fun b hb => match b, hb with | ⟨0, _⟩, _ => rfl | ⟨1, _⟩, hb => absurd rfl hb)
    (by show k.val + 128 = 128 + k.val; omega)

/-- The transposed weight at (j, c) is the weight at (c, j). -/
theorem weight_t (x4 : Wgt.Idx → EReal) (r : Fin 100000) (c : Fin 128) (j : Fin 256) :
    val_main_v1 (F := Ideal) x4 (ridx_main_v2 (ix2 r c) j) = x4 (ix2 c j) := by
  rw [val_main_v1_apply]
  exact congrArg x4 (funext fun a => match a with | ⟨0, _⟩ => rfl | ⟨1, _⟩ => rfl)

/-- The reference's logit is the gated select's. -/
theorem logit_eq (x0 x2 : Feat.Idx → EReal) (x4 : Wgt.Idx → EReal) (x5 : Bia.Idx → EReal) (r : Fin 100000) (c : Fin 128) :
    val_main_v5 (F := Ideal) x0 x2 x4 x5 (ix2 r c) = logit x0 x2 x4 x5 r c := by
  have hb : x5 (idx_main_v3 (idx_main_v4 (ix2 r c))) = x5 (ix1 c) :=
    congrArg x5 (funext fun a => match a with | ⟨0, _⟩ => rfl)
  rw [val_main_v5_apply, val_main_v2_apply, val_main_v4_apply, val_main_v3_apply, hb, sum_halves]
  simp only [joined_lo, joined_hi, weight_t]
  rfl

/-- The first result of the reference is the gated select of its arguments, where the features are real. -/
theorem first_eq (x0 x2 : Feat.Idx → EReal) (x4 : Wgt.Idx → EReal) (x5 : Bia.Idx → EReal)
    (hr0 : ∀ i, ∃ r : ℝ, x0 i = (r : EReal)) (hr2 : ∀ i, ∃ r : ℝ, x2 i = (r : EReal)) :
    val_main_v16 (F := Ideal) x0 x2 x4 x5 = gated x0 x2 x4 x5 := by
  funext i
  obtain ⟨r, c, rfl⟩ : ∃ (r : Fin 100000) (c : Fin 128), i = ix2 r c := ⟨i 0, i 1, eq_ix2 i⟩
  simp only [val_main_v16_apply, val_main_v12_apply, val_main_v15_apply, val_main_v14_apply, val_main_v13_apply, val_main_cst_1_apply,
    val_main_v11_apply, val_main_v10_apply, val_main_cst_0_apply, val_main_v9_apply, val_main_v8_apply, val_main_cst_apply,
    val_main_v7_apply, val_main_v6_apply, logit_eq]
  show Ideal.div (Ideal.ofBits .f32 0x3F800000#32) (Ideal.ofBits .f32 0x3F800000#32 + Ideal.exp (-(logit x0 x2 x4 x5 r c))) * x0 (ix2 r c)
      + (Ideal.ofBits .f32 0x3F800000#32 - Ideal.div (Ideal.ofBits .f32 0x3F800000#32) (Ideal.ofBits .f32 0x3F800000#32 + Ideal.exp (-(logit x0 x2 x4 x5 r c)))) * x2 (ix2 r c)
      = x2 (ix2 r c) + Ideal.logistic (logit x0 x2 x4 x5 r c) * (x0 (ix2 r c) - x2 (ix2 r c))
  rw [Ideal.ofBits_one_f32]
  exact blend (logit x0 x2 x4 x5 r c) (x0 (ix2 r c)) (x2 (ix2 r c)) (hr0 _) (hr2 _)

section Second

variable {F : FTy → Type} [FloatOps F]

/-- The second result is the first result's chain of operations at the other four arguments. -/
theorem second_eq_first (x1 x3 : (⟨S100000x128, .f32⟩ : BufTy).Contents (Elt F)) (x6 : (⟨S128x256, .f32⟩ : BufTy).Contents (Elt F))
    (x7 : (⟨S128, .f32⟩ : BufTy).Contents (Elt F)) :
    val_main_v33 (F := F) x1 x3 x6 x7 = val_main_v16 (F := F) x1 x3 x6 x7 := rfl

end Second

/-- The second result of the reference is the gated select of its arguments, where the features are real. -/
theorem second_eq (x1 x3 : Feat.Idx → EReal) (x6 : Wgt.Idx → EReal) (x7 : Bia.Idx → EReal)
    (hr1 : ∀ i, ∃ r : ℝ, x1 i = (r : EReal)) (hr3 : ∀ i, ∃ r : ℝ, x3 i = (r : EReal)) :
    val_main_v33 (F := Ideal) x1 x3 x6 x7 = gated x1 x3 x6 x7 :=
  (second_eq_first (F := Ideal) x1 x3 x6 x7).trans (first_eq x1 x3 x6 x7 hr1 hr3)

end Cert.ReferenceIdeal.RefSide

end
-- ==== Proof.Finite.lean ====
import proofs.«157193_g42941083026054_cont_8to1_b_680_16_alg».proof.Proof.Gen.Pre_finite_inputs
import Idealize.ShloMosaic.Lib.ReduceAll
import Idealize.ShloMosaic.Lib.ValueIdx
import Idealize.ShloMosaic.PureOps.Ideal

/-!
  The precondition, read back: every entry of the four feature arrays is a real number.

  The precondition is the conjunction, over the eight inputs, of "every |x| is below +infinity". On the extended reals
  |x| = max x (-x) is below +infinity exactly when x is neither infinity, that is, when x is a real number. Only the
  four feature arrays' conjuncts are used: the blend distributes the gate over a difference of their entries.
-/

noncomputable section

namespace Cert.Finite

open Idealize.ShloMosaic Cert.Pre_finite_inputs Cert.Pre_finite_inputs.Gen

instance : Subsingleton (S_ : Shape).Idx := ⟨fun a b => funext fun d => d.elim0⟩

/-- An extended real whose absolute value compares below the word of +infinity is a real number. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => simp [Ideal.cmp] at h
  | coe r => exact ⟨r, rfl⟩
  | top => simp [Ideal.cmp] at h

/-- One conjunct of the precondition gives that every entry of its array is real. -/
theorem real_of_all (x : FVec Ideal S100000x128 .f32)
    (e : Host.reduce IntOp.andi (cmpf .olt (Host.absf x) (broadcastInDim S100000x128 ![] bcast_S_S100000x128 (constant (F := Ideal) S_ .f32 0x7F800000#32)))
        (constantI S_ 1 1#1) reducesTo_S100000x128_S_d0_1 h_S_ ValueIdx.ix0 = 1#1) (i : S100000x128.Idx) :
    ∃ r : ℝ, x i = (r : EReal) :=
  real_of_abs_lt (x i) (Host.reduce_andi_all _ _ reducesTo_S100000x128_S_d0_1 h_S_ ValueIdx.ix0 e i)

/-- Under the precondition every entry of each of the four feature arrays is a real number. -/
theorem features_real (x0 x1 x2 x3 : FVec Ideal S100000x128 .f32) (x4 : FVec Ideal S128x256 .f32) (x5 : FVec Ideal S128 .f32)
    (x6 : FVec Ideal S128x256 .f32) (x7 : FVec Ideal S128 .f32)
    (h : Cert.Pre_finite_inputs.fn (F := Ideal) x0 x1 x2 x3 x4 x5 x6 x7 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1, Cert.Pre_finite_inputs.fn_part2] at h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all x0 e0, real_of_all x1 e1, real_of_all x2 e2, real_of_all x3 e3⟩

end Cert.Finite

end
-- ==== Proof.lean ====
/-
  Two gated feature selects over 100000 rows of 128 features: the kernel against its reference, on the extended reals.

  For feature arrays h0, h1, a gate weight W (128 by 256) and a bias b, both programs compute, at row r and column c,
      z = sum_{k < 128} h0(r, k) W(c, k) + sum_{k < 128} h1(r, k) W(c, 128 + k) + b(c),   g = 1 / (1 + exp(-z)),
  once for (h0_i, h1_i, Wg1, bg1) and once for (h0_c, h1_c, Wg3, bg3).

  The kernel walks the rows in 20 blocks of 5000. It multiplies a block of h0 by the transposed first half of W and the
  block of h1 by the transposed second half, adds the two products and the bias row, applies the logistic, and stores
  h1 + g * (h0 - h1). The narrowing of the operands to bfloat16 is the identity on exact values, a matrix product into
  a zero accumulator is the plain sum over the contracted index, and the 20 blocks cover each result, so each result is one
  function of the arguments: the gated select (Spec, Payload, HostOperands, Blocks).

  The reference joins h0 and h1 side by side, multiplies by the transposed W, adds the bias, forms g as the quotient
  1 / (1 + exp(-z)) and returns g * h0 + (1 - g) * h1. Its contraction over 256 columns splits into the kernel's two
  sums, its quotient is the logistic, and because the logistic of any extended real is a real number in [0, 1], the
  convex blend equals h1 + g * (h0 - h1) wherever h0 and h1 are real (RefSide). That h0 and h1 are real is what the
  precondition gives (Finite); the weights and biases may be anything.

  The idealization rewrote nothing, so it has nothing to preserve.
-/
import proofs.«157193_g42941083026054_cont_8to1_b_680_16_alg».proof.Defs
import proofs.«157193_g42941083026054_cont_8to1_b_680_16_alg».proof.Proof.Gen.Kernel
import proofs.«157193_g42941083026054_cont_8to1_b_680_16_alg».proof.Proof.Gen.Kernel.Skeleton
import proofs.«157193_g42941083026054_cont_8to1_b_680_16_alg».proof.Proof.Gen.Kernel.Launch
import proofs.«157193_g42941083026054_cont_8to1_b_680_16_alg».proof.Proof.Gen.Kernel.Points
import proofs.«157193_g42941083026054_cont_8to1_b_680_16_alg».proof.Proof.Gen.Kernel.Frame
import proofs.«157193_g42941083026054_cont_8to1_b_680_16_alg».proof.Proof.Gen.KernelIdeal
import proofs.«157193_g42941083026054_cont_8to1_b_680_16_alg».proof.Proof.Gen.KernelIdeal.Skeleton
import proofs.«157193_g42941083026054_cont_8to1_b_680_16_alg».proof.Proof.Gen.KernelIdeal.Launch
import proofs.«157193_g42941083026054_cont_8to1_b_680_16_alg».proof.Proof.Gen.KernelIdeal.Points
import proofs.«157193_g42941083026054_cont_8to1_b_680_16_alg».proof.Proof.Gen.KernelIdeal.Frame
import proofs.«157193_g42941083026054_cont_8to1_b_680_16_alg».proof.Proof.Gen.ReferenceIdeal
import proofs.«157193_g42941083026054_cont_8to1_b_680_16_alg».proof.Proof.Gen.Pre_finite_inputs
import proofs.«157193_g42941083026054_cont_8to1_b_680_16_alg».proof.Proof.Blocks
import proofs.«157193_g42941083026054_cont_8to1_b_680_16_alg».proof.Proof.RefSide
import proofs.«157193_g42941083026054_cont_8to1_b_680_16_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with its two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- Both programs end with each result at the gated select of the arguments: the kernel always, the reference where
    the feature arrays are real, which the precondition says they are. -/
theorem algebraic : Cert.algebraic_KernelIdeal_ReferenceIdeal := by
  intro m ρ m' ρ' hpre hagree
  refine ⟨_, _, Cert.KernelIdeal.Blocks.run m ρ, ?_⟩
  refine (θ_run Cert.ReferenceIdeal.defs _ _).mono (fun r h c => ?_) (Cert.ReferenceIdeal.ValueP.run (F := Ideal) m' ρ')
  obtain ⟨hr0, hr1, hr2, hr3⟩ := Cert.Finite.features_real _ _ _ _ _ _ _ _ (hpre c)
  obtain ⟨a0, a1, a2, a3, a4, a5, a6, a7⟩ := hagree c
  refine ⟨(h c).1.trans ?_, (h c).2.1.trans ?_, (h c).2.2⟩
  · rw [Cert.ReferenceIdeal.ReadP.val_main_v16_eq, a0, a2, a4, a5]
    exact Cert.ReferenceIdeal.RefSide.first_eq _ _ _ _ hr0 hr2
  · rw [Cert.ReferenceIdeal.ReadP.val_main_v33_eq, a1, a3, a6, a7]
    exact Cert.ReferenceIdeal.RefSide.second_eq _ _ _ _ hr1 hr3

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
